-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S512 .f32) (main_arg5 : FVec F S2048x512 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048 .f32) (main_arg2 : FVec F S2048 .f32) (main_arg3 : FVec F S512x2048 .f32) (main_arg4 : FVec F S512 .f32) (main_arg5 : FVec F S2048x512 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S256x512 : Shape := ⟨2, ![256, 512]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S16384x2048, .f32⟩
  | .hbm, ⟨8, _⟩ => ⟨S2048x512, .f32⟩
  | .hbm, ⟨9, _⟩ => ⟨S2048x512, .bf16⟩
  | .hbm, ⟨10, _⟩ => ⟨S512x2048, .f32⟩
  | .hbm, ⟨11, _⟩ => ⟨S512x2048, .bf16⟩
  | .hbm, ⟨12, _⟩ => ⟨S16384x2048, .f32⟩
  | .hbm, ⟨13, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048, .f32⟩
  | .local _ .vmem, ⟨3, _⟩ => ⟨S2048, .f32⟩
  | .local _ .vmem, ⟨4, _⟩ => ⟨S2048x512, .bf16⟩
  | .local _ .vmem, ⟨5, _⟩ => ⟨S512, .f32⟩
  | .local _ .vmem, ⟨6, _⟩ => ⟨S512x2048, .bf16⟩
  | .local _ .vmem, ⟨7, _⟩ => ⟨S2048, .f32⟩
  | .local _ .vmem, ⟨8, _⟩ => ⟨S256x2048, .f32⟩
  | .local _ .vmem, ⟨9, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  transposes_S512x2048_S2048x512_1_0 : S512x2048.Transposes [1, 0] S2048x512
  bitsLt_bf16_f32 : FTy.bits .bf16 < FTy.bits .f32
  transposes_S2048x512_S512x2048_1_0 : S2048x512.Transposes [1, 0] S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S16384x2048_S4x4096x2048 : S16384x2048.ShapeCasts S4x4096x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S16384x2048.size a
  hwx0_7 : ∀ i : grid0.Coords, EltTy.bits .f32 = 32 ∨ (Rect.block (s := S16384x2048) S256x2048.size (cc0_transform_7 i) (hinb0_7 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x512 : Shape := ⟨3, ![4, 4096, 512]⟩
abbrev S1x1x512 : Shape := ⟨3, ![1, 1, 512]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x512, .f32⟩
  | .hbm, ⟨37, _⟩ => ⟨S1x1x512, .f32⟩
  | .hbm, ⟨38, _⟩ => ⟨S4x4096x512, .f32⟩
  | .hbm, ⟨39, _⟩ => ⟨S4x4096x512, .f32⟩
  | .hbm, ⟨40, _⟩ => ⟨S_, .f32⟩
  | .hbm, ⟨41, _⟩ => ⟨S4x4096x512, .f32⟩
  | .hbm, ⟨42, _⟩ => ⟨S4x4096x512, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x2048_S512x2048_S4x4096x512_2_1_01_0_n_n_wf : DotDims.WF S4x4096x2048 S512x2048 S4x4096x512 [2] [1] [0, 1] [0] [] []
  dot_S4x4096x512_S2048x512_S4x4096x2048_2_1_01_0_n_n_wf : DotDims.WF S4x4096x512 S2048x512 S4x4096x2048 [2] [1] [0, 1] [0] [] []

variable [Facts₀]

def dot_S4x4096x2048_S512x2048_S4x4096x512_2_1_01_0_n_n : DotDims S4x4096x2048 S512x2048 S4x4096x512 where
  lhsContracting := [2]
  rhsContracting := [1]
  lhsNonContracting := [0, 1]
  rhsNonContracting := [0]
  lhsBatch := []
  rhsBatch := []
  wf := dot_S4x4096x2048_S512x2048_S4x4096x512_2_1_01_0_n_n_wf
def dot_S4x4096x512_S2048x512_S4x4096x2048_2_1_01_0_n_n : DotDims S4x4096x512 S2048x512 S4x4096x2048 where
  lhsContracting := [2]
  rhsContracting := [1]
  lhsNonContracting := [0, 1]
  rhsNonContracting := [0]
  lhsBatch := []
  rhsBatch := []
  wf := dot_S4x4096x512_S2048x512_S4x4096x2048_2_1_01_0_n_n_wf

class Facts : Prop extends Facts₀ where

variable [Facts]
-- ==== Proof.AdapterSpec.lean ====
/-
  The adapter layer on one row, over the extended reals.

  A row x of 2048 entries is normalised — its mean and its (biased) variance are sums over the row divided by the
  constant 2048, the centred row is scaled by the reciprocal square root of the variance plus a small constant, then
  by the gain g and shifted by the offset b —, sent through the down-projection (512 outputs, each a dot product with a
  row of wd, plus bd), clipped below at zero, sent through the up-projection (2048 outputs, each a dot product with a row
  of wu, plus bu), and added to x. Both programs compute exactly this, in this grouping; the two constants stay the
  bit patterns both programs print, so neither is ever evaluated.
-/
import Idealize.ShloMosaic.PureOps.Ideal
import Idealize.ShloMosaic.Lib.ValueIdx

noncomputable section

namespace Cert.Adapter

open Idealize.ShloMosaic Idealize.ShloMosaic.ValueIdx

/-- The divisor of both means: the row length as both programs print it. -/
def rowLen : EReal := Ideal.ofBits .f32 0x45000000#32
/-- The constant added to the variance. -/
def varEps : EReal := Ideal.ofBits .f32 0x3727C5AC#32

/-- The mean of a row. -/
def rowMean (x : Fin 2048 → EReal) : EReal := Ideal.div (∑ k : Fin 2048, x k) rowLen

/-- The biased variance of a row: the mean of the squared deviations from the mean. -/
def rowVar (x : Fin 2048 → EReal) : EReal :=
  Ideal.div (∑ k : Fin 2048, (x k - rowMean x) * (x k - rowMean x)) rowLen

/-- The normalised row, with gain and offset. -/
def normed (x g b : Fin 2048 → EReal) (k : Fin 2048) : EReal :=
  (x k - rowMean x) * Ideal.rsqrt (rowVar x + varEps) * g k + b k

/-- The hidden activations: the down-projection of the normalised row, plus its bias, clipped below at zero. -/
def hiddenRow (x g b : Fin 2048 → EReal) (wd : Fin 512 → Fin 2048 → EReal) (bd : Fin 512 → EReal) (j : Fin 512) : EReal :=
  max ((∑ k : Fin 2048, normed x g b k * wd j k) + bd j) 0

/-- The layer's output row: the up-projection of the hidden activations, plus its bias, added to the input row. -/
def adapterRow (x g b : Fin 2048 → EReal) (wd : Fin 512 → Fin 2048 → EReal) (bd : Fin 512 → EReal)
    (wu : Fin 2048 → Fin 512 → EReal) (bu : Fin 2048 → EReal) (q : Fin 2048) : EReal :=
  x q + ((∑ j : Fin 512, hiddenRow x g b wd bd j * wu q j) + bu q)

/-- The layer depends on its data only through their entries. -/
theorem adapterRow_congr {x x' g g' b b' : Fin 2048 → EReal} {wd wd' : Fin 512 → Fin 2048 → EReal} {bd bd' : Fin 512 → EReal}
    {wu wu' : Fin 2048 → Fin 512 → EReal} {bu bu' : Fin 2048 → EReal} {q q' : Fin 2048}
    (hx : ∀ k, x k = x' k) (hg : ∀ k, g k = g' k) (hb : ∀ k, b k = b' k) (hwd : ∀ j k, wd j k = wd' j k)
    (hbd : ∀ j, bd j = bd' j) (hwu : ∀ q j, wu q j = wu' q j) (hbu : ∀ q, bu q = bu' q) (hq : q = q') :
    adapterRow x g b wd bd wu bu q = adapterRow x' g' b' wd' bd' wu' bu' q' := by
  obtain rfl : x = x' := funext hx
  obtain rfl : g = g' := funext hg
  obtain rfl : b = b' := funext hb
  obtain rfl : wd = wd' := funext fun j => funext (hwd j)
  obtain rfl : bd = bd' := funext hbd
  obtain rfl : wu = wu' := funext fun q => funext (hwu q)
  obtain rfl : bu = bu' := funext hbu
  rw [hq]

/-- The whole result: entry (a, s, q) is the layer applied to row (a, s) of X, read at q. -/
def G (X : (⟨3, ![4, 4096, 2048]⟩ : Shape).Idx → EReal) (g b : (⟨1, ![2048]⟩ : Shape).Idx → EReal)
    (Wd : (⟨2, ![512, 2048]⟩ : Shape).Idx → EReal) (bd : (⟨1, ![512]⟩ : Shape).Idx → EReal)
    (Wu : (⟨2, ![2048, 512]⟩ : Shape).Idx → EReal) (bu : (⟨1, ![2048]⟩ : Shape).Idx → EReal) :
    (⟨3, ![4, 4096, 2048]⟩ : Shape).Idx → EReal :=
  fun i => adapterRow (fun k => X (ix3 (i 0) (i 1) k)) (fun k => g (ix1 k)) (fun k => b (ix1 k))
    (fun j k => Wd (ix2 j k)) (fun j => bd (ix1 j)) (fun q j => Wu (ix2 q j)) (fun q => bu (ix1 q)) (i 2)

/-- The same over the rows laid out as one axis of 16384: entry (r, q) is the layer applied to row r of X2. The
    projections are given transposed, as the kernel receives them. -/
def G2 (X2 : (⟨2, ![16384, 2048]⟩ : Shape).Idx → EReal) (g b : (⟨1, ![2048]⟩ : Shape).Idx → EReal)
    (WdT : (⟨2, ![2048, 512]⟩ : Shape).Idx → EReal) (bd : (⟨1, ![512]⟩ : Shape).Idx → EReal)
    (WuT : (⟨2, ![512, 2048]⟩ : Shape).Idx → EReal) (bu : (⟨1, ![2048]⟩ : Shape).Idx → EReal) :
    (⟨2, ![16384, 2048]⟩ : Shape).Idx → EReal :=
  fun i => adapterRow (fun k => X2 (ix2 (i 0) k)) (fun k => g (ix1 k)) (fun k => b (ix1 k))
    (fun j k => WdT (ix2 k j)) (fun j => bd (ix1 j)) (fun q j => WuT (ix2 j q)) (fun q => bu (ix1 q)) (i 1)

end Cert.Adapter

end
-- ==== Proof.LibColumn.lean ====
/-
  A column vector made from a vector, and a column spread over the columns of a matrix.

  Reductions that keep their axis produce, per row, one value held in an [a, 1] array: the [a] vector of row values
  cast to [a, 1], then broadcast to [a, b]. Read at an entry, the cast is the vector at the row, and the broadcast
  is the column's one entry of that row whatever the column asked for.
-/
import Idealize.ShloMosaic.Lib.Pipeline.Value
import Idealize.ShloMosaic.Lib.ValueIdx

namespace Cert.LibColumn

open Idealize.ShloMosaic Idealize.ShloMosaic.ValueIdx

variable {α : Type}

/-- An [a] array cast to [a, 1] reads, at (p, u), the operand at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KernelRow.lean ====
/-
  What the kernel's body stores, read at one entry.

  The body holds a block of 256 rows. For row p of the block it computes the row's mean and variance by sums along
  the row, normalises the row, multiplies by the (transposed) down-projection into a zero accumulator, adds the bias,
  clips at zero, multiplies by the (transposed) up-projection into a zero accumulator, adds the bias and the row itself.
  Entry (p, q) of what it stores is therefore the adapter layer applied to row p of the block, read at q.

  The body's arithmetic is restated below as a few block-level stages (the same operations in the same order), each
  read at an entry; the last lemma joins the stages to the body's own payload terms.
-/
import proofs.«100623_j18923625906221_1_alg».proof.Proof.Gen.KernelIdeal.Frame
import proofs.«100623_j18923625906221_1_alg».proof.Proof.AdapterSpec
import proofs.«100623_j18923625906221_1_alg».proof.Proof.LibColumn
import proofs.«100623_j18923625906221_1_alg».proof.Proof.LibDense
import Idealize.ShloMosaic.Lib.ValueLayout
import Idealize.ShloMosaic.PureOps.Ideal.Laws

noncomputable section

namespace Cert.KernelIdeal.RowValue

open Cert.KernelIdeal Cert.KernelIdeal.Gen Cert.Adapter Cert.LibColumn
open Idealize.ShloMosaic Idealize.ShloMosaic.ValueIdx

/-- A reciprocal square root taken entry by entry. -/
theorem rsqrt_apply {s : Shape} {φ : FTy} (x : FVec Ideal s φ) (i : s.Idx) : rsqrt x i = Ideal.rsqrt (x i) := rfl

/-- The sum along row p of a 256 × 2048 block. -/
theorem rowSum_apply (v : FVec Ideal S256x2048 .f32) (p : Fin 256) :
    multiReduction .add [1] S256 v 0x00000000#32 reduces_S256x2048_S256 (.inl rfl) rfl (ix1 p) = ∑ k : Fin 2048, v (ix2 p k) := by
  refine (Ideal.multiReduction_add_single v 0x00000000#32 reduces_S256x2048_S256 (.inl rfl) rfl (ix1 p)).trans ?_
  exact Finset.sum_congr rfl fun k _ => congrArg v (funext fun a => Fin.ext (by
    match a with
    | ⟨0, _⟩ => rfl
    | ⟨1, _⟩ => rfl))

/-! ## The stages of the body, block by block -/

/-- The row sums of a block, kept as a column. -/
def sumCol (v : FVec Ideal S256x2048 .f32) : FVec Ideal S256x1 .f32 :=
  shapeCast S256x1 (multiReduction .add [1] S256 v 0x00000000#32 reduces_S256x2048_S256 (.inl rfl) rfl) shapeCasts_S256_S256x1

theorem sumCol_apply (v : FVec Ideal S256x2048 .f32) (p : Fin 256) (u : Fin 1) :
    sumCol v (ix2 p u) = ∑ k : Fin 2048, v (ix2 p k) :=
  (shapeCast_a_a1_apply _ shapeCasts_S256_S256x1 p u).trans (rowSum_apply v p)

/-- The row means of a block, as a column. -/
def meanCol (v : FVec Ideal S256x2048 .f32) : FVec Ideal S256x1 .f32 :=
  divf (sumCol v) (broadcast S256x1 (Scalar.ofBits .f32 0x45000000#32))

theorem meanCol_apply (v : FVec Ideal S256x2048 .f32) (p : Fin 256) (u : Fin 1) :
    meanCol v (ix2 p u) = rowMean (fun k => v (ix2 p k)) :=
  congrArg (fun s => Ideal.div s rowLen) (sumCol_apply v p u)

/-- The block with each row's mean taken off. -/
def centred (v : FVec Ideal S256x2048 .f32) : FVec Ideal S256x2048 .f32 :=
  subf v (broadcastTo S256x2048 (meanCol v) broadcasts_S256x1_S256x2048)

theorem centred_apply (v : FVec Ideal S256x2048 .f32) (p : Fin 256) (k : Fin 2048) :
    centred v (ix2 p k) = v (ix2 p k) - rowMean (fun k => v (ix2 p k)) := by
  unfold centred
  rw [subf_apply, broadcastTo_a1_ab_apply, meanCol_apply]

/-- The row variances of a block, as a column. -/
def varCol (v : FVec Ideal S256x2048 .f32) : FVec Ideal S256x1 .f32 :=
  divf (sumCol (mulf (centred v) (centred v))) (broadcast S256x1 (Scalar.ofBits .f32 0x45000000#32))

theorem varCol_apply (v : FVec Ideal S256x2048 .f32) (p : Fin 256) (u : Fin 1) :
    varCol v (ix2 p u) = rowVar (fun k => v (ix2 p k)) := by
  refine (congrArg (fun s => Ideal.div s rowLen) (sumCol_apply (mulf (centred v) (centred v)) p u)).trans ?_
  unfold rowVar
  refine congrArg (fun s => Ideal.div s rowLen) (Finset.sum_congr rfl fun k _ => ?_)
  rw [mulf_apply, centred_apply]

/-- The normalised block, with gain and offset. -/
def normedBlk (v : FVec Ideal S256x2048 .f32) (g b : FVec Ideal S2048 .f32) : FVec Ideal S256x2048 .f32 :=
  addf (mulf (mulf (centred v)
      (broadcastTo S256x2048 (rsqrt (addf (varCol v) (broadcast S256x1 (Scalar.ofBits .f32 0x3727C5AC#32)))) broadcasts_S256x1_S256x2048))
      (broadcastTo S256x2048 (shapeCast S1x2048 g shapeCasts_S2048_S1x2048) broadcasts_S1x2048_S256x2048))
    (broadcastTo S256x2048 (shapeCast S1x2048 b shapeCasts_S2048_S1x2048) broadcasts_S1x2048_S256x2048)

theorem normedBlk_apply (v : FVec Ideal S256x2048 .f32) (g b : FVec Ideal S2048 .f32) (p : Fin 256) (k : Fin 2048) :
    normedBlk v g b (ix2 p k) = normed (fun k => v (ix2 p k)) (fun k => g (ix1 k)) (fun k => b (ix1 k)) k := by
  unfold normedBlk normed
  rw [addf_apply, mulf_apply, mulf_apply, centred_apply, broadcastTo_a1_ab_apply, rsqrt_apply, addf_apply, varCol_apply,
    broadcastTo_1b_ab_apply, broadcastTo_1b_ab_apply, shapeCast_a_1a_apply, shapeCast_a_1a_apply]
  rfl

/-- The hidden activations of a block: down-projection into a zero accumulator, bias, clipped below at zero. -/
def hiddenBlk (v : FVec Ideal S256x2048 .f32) (g b : FVec Ideal S2048 .f32) (wdT : FVec Ideal S2048x512 .bf16)
    (bd : FVec Ideal S512 .f32) : FVec Ideal S256x512 .f32 :=
  maximumf (addf (matmul dot_S256x2048_S2048x512_S256x512_1_0_0_1_n_n none (truncf .bf16 (normedBlk v g b) bitsLt_bf16_f32)
        (shapeCast S2048x512 wdT shapeCasts_S2048x512_S2048x512) (constant S256x512 .f32 0x00000000#32))
      (broadcastTo S256x512 (shapeCast S1x512 bd shapeCasts_S512_S1x512) broadcasts_S1x512_S256x512))
    (broadcast S256x512 (Scalar.ofBits .f32 0x00000000#32))

theorem hiddenBlk_apply (v : FVec Ideal S256x2048 .f32) (g b : FVec Ideal S2048 .f32) (wdT : FVec Ideal S2048x512 .bf16)
    (bd : FVec Ideal S512 .f32) (p : Fin 256) (j : Fin 512) :
    hiddenBlk v g b wdT bd (ix2 p j)
      = hiddenRow (fun k => v (ix2 p k)) (fun k => g (ix1 k)) (fun k => b (ix1 k)) (fun j k => wdT (ix2 k j)) (fun j => bd (ix1 j)) j := by
  unfold hiddenBlk hiddenRow
  rw [maximumf_apply, addf_apply, broadcastTo_1b_ab_apply, shapeCast_a_1a_apply, shapeCast_self]
  refine congrArg₂ max (congrArg (· + bd (ix1 j)) ?_) Ideal.ofBits_zero_f32
  refine (Cert.LibDense.matmul_zero_apply dot_S256x2048_S2048x512_S256x512_1_0_0_1_n_n none rfl rfl rfl rfl rfl rfl _ _ p j).trans ?_
  refine Finset.sum_congr rfl fun k _ => ?_
  rw [truncf_apply, normedBlk_apply]

/-- What the body stores for a block: up-projection of the hidden activations into a zero accumulator, bias, plus the block. -/
def outBlk (v : FVec Ideal S256x2048 .f32) (g b : FVec Ideal S2048 .f32) (wdT : FVec Ideal S2048x512 .bf16)
    (bd : FVec Ideal S512 .f32) (wuT : FVec Ideal S512x2048 .bf16) (bu : FVec Ideal S2048 .f32) : FVec Ideal S256x2048 .f32 :=
  addf v (addf (matmul dot_S256x512_S512x2048_S256x2048_1_0_0_1_n_n none (truncf .bf16 (hiddenBlk v g b wdT bd) bitsLt_bf16_f32)
        (shapeCast S512x2048 wuT shapeCasts_S512x2048_S512x2048) (constant S256x2048 .f32 0x00000000#32))
      (broadcastTo S256x2048 (shapeCast S1x2048 bu shapeCasts_S2048_S1x2048) broadcasts_S1x2048_S256x2048))

theorem outBlk_apply (v : FVec Ideal S256x2048 .f32) (g b : FVec Ideal S2048 .f32) (wdT : FVec Ideal S2048x512 .bf16)
    (bd : FVec Ideal S512 .f32) (wuT : FVec Ideal S512x2048 .bf16) (bu : FVec Ideal S2048 .f32) (p : Fin 256) (q : Fin 2048) :
    outBlk v g b wdT bd wuT bu (ix2 p q)
      = adapterRow (fun k => v (ix2 p k)) (fun k => g (ix1 k)) (fun k => b (ix1 k)) (fun j k => wdT (ix2 k j)) (fun j => bd (ix1 j))
          (fun q j => wuT (ix2 j q)) (fun q => bu (ix1 q)) q := by
  unfold outBlk adapterRow
  rw [addf_apply, addf_apply, broadcastTo_1b_ab_apply, shapeCast_a_1a_apply, shapeCast_self]
  refine congrArg (v (ix2 p q) + ·) (congrArg (· + bu (ix1 q)) ?_)
  refine (Cert.LibDense.matmul_zero_apply dot_S256x512_S512x2048_S256x2048_1_0_0_1_n_n none rfl rfl rfl rfl rfl rfl _ _ p q).trans ?_
  refine Finset.sum_congr rfl fun j _ => ?_
  rw [truncf_apply, hiddenBlk_apply]

/-! ## The body's payload is those stages -/

/-- The body's stored value, over its loaded blocks, is the last stage: the same operations in the same order. -/
theorem pay_eq (v0 : FVec Ideal S256x2048 .f32) (v20 v24 : FVec Ideal S2048 .f32) (v29 : FVec Ideal S2048x512 .bf16)
    (v32 : FVec Ideal S512 .f32) (v39 : FVec Ideal S512x2048 .bf16) (v42 : FVec Ideal S2048 .f32) :
    k0_pay1 (k0_pay2 v0) (k0_pay3 v0 v20 v24 v29 v32 v39) v42 = outBlk v0 v20 v24 v29 v32 v39 v42 := by
  have e2 : k0_pay2 v0 = v0 := shapeCast_self v0 shapeCasts_S256x2048_S256x2048
  unfold k0_pay1 k0_pay3
  rw [e2]
  rfl

/-- So entry (p, q) of what the body stores is the adapter layer applied to row p of its block, read at q. -/
theorem pay_apply (v0 : FVec Ideal S256x2048 .f32) (v20 v24 : FVec Ideal S2048 .f32) (v29 : FVec Ideal S2048x512 .bf16)
    (v32 : FVec Ideal S512 .f32) (v39 : FVec Ideal S512x2048 .bf16) (v42 : FVec Ideal S2048 .f32) (p : Fin 256) (q : Fin 2048) :
    k0_pay1 (F := Ideal) (k0_pay2 v0) (k0_pay3 v0 v20 v24 v29 v32 v39) v42 (ix2 p q)
      = adapterRow (fun k => v0 (ix2 p k)) (fun k => v20 (ix1 k)) (fun k => v24 (ix1 k)) (fun j k => v29 (ix2 k j)) (fun j => v32 (ix1 j))
          (fun q j => v39 (ix2 j q)) (fun q => v42 (ix1 q)) q := by
  rw [pay_eq, outBlk_apply]

end Cert.KernelIdeal.RowValue

end
-- ==== Proof.KernelValue.lean ====
/-
  The kernel program's result as one function of its arguments.

  Before the region the host lines lay the input's rows out along one axis of 16384 and transpose the two projections.
  The region has 64 points; point t holds rows 256·t … 256·t + 255, reads the gain, the offset, the two biases and the two
  transposed projections whole, and writes back the adapter layer of its rows. The 64 blocks tile the rows, so the
  region's array ends as the layer applied to every row; the host line after the region puts the rows back under their
  two leading axes.
-/
import proofs.«100623_j18923625906221_1_alg».proof.Proof.Gen.KernelIdeal.Frame
import proofs.«100623_j18923625906221_1_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.AdapterValue

open Cert.KernelIdeal Cert.KernelIdeal.Gen Cert.Adapter
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in its arrays -/

/-- The rows of the input along one axis. -/
theorem V_rows (c : Dev nD) :
    V m c main_v0 = shapeCast S16384x2048 (m ((c : Thread nD τ).loc main_arg0)) shapeCasts_S4x4096x2048_S16384x2048 := by
  show StableHlo.after hostOps0 (fun b => m (c, b)) (Proc.devRef .tc main_v0) = _
  after_results
  rfl

/-- The down-projection, transposed. -/
theorem V_downT (c : Dev nD) :
    V m c main_v2 = (truncf .bf16 (transpose S2048x512 [1, 0] (m ((c : Thread nD τ).loc main_arg3)) transposes_S512x2048_S2048x512_1_0) bitsLt_bf16_f32 : FVec Ideal S2048x512 .bf16) := by
  show StableHlo.after hostOps0 (fun b => m (c, b)) (Proc.devRef .tc main_v2) = _
  after_results

/-- The up-projection, transposed. -/
theorem V_upT (c : Dev nD) :
    V m c main_v4 = (truncf .bf16 (transpose S512x2048 [1, 0] (m ((c : Thread nD τ).loc main_arg5)) transposes_S2048x512_S512x2048_1_0) bitsLt_bf16_f32 : FVec Ideal S512x2048 .bf16) := by
  show StableHlo.after hostOps0 (fun b => m (c, b)) (Proc.devRef .tc main_v4) = _
  after_results

/-- The region's result array as a function of what the region finds: the adapter layer of every row. -/
abbrev regionOut (c : Dev nD) : S16384x2048.Idx → EReal :=
  G2 (V m c main_v0) (V m c main_arg1) (V m c main_arg2) (V m c main_v2) (V m c main_arg4) (V m c main_v4) (V m c main_arg6)

/-! ## What a point writes back -/

theorem zeros2 : (![0, 0] : Fin 2 → Nat) = fun _ => 0 := funext fun a => by fin_cases a <;> rfl
theorem zeros1 : (![0] : Fin 1 → Nat) = fun _ => 0 := funext fun a => by fin_cases a; rfl

/-- The printed index maps over the 64 points: the rows' window and the result's window sit at block t of the row
    axis; every other window is at block 0. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 63 :=
  (by decide +kernel : ∀ t : Fin grid0.N, _)

/-- Every block of rows is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

/-- Point t writes back block t of the adapter layer of the rows. -/
theorem flushed_eq (c : Dev nD) (t : Fin cfg0.N) :
    (dats m 0 c).flushed 7 t = ((cfg0.win 7).blk t).view.read (Elt Ideal) (regionOut m c) := by
  show (cfg0.win 7).cut (grid0.coords t) ((dats m 0 c).after 7 t) = _
  rw [after0_7]
  unfold out0_7
  rw [View.canon_unit_zero zeros2]
  simp only [View.ld_unit_zero (S := S256x2048) zeros2, View.ld_unit_zero (S := S2048) zeros1,
    View.ld_unit_zero (S := S2048x512) zeros2, View.ld_unit_zero (S := S512) zeros1, View.ld_unit_zero (S := S512x2048) zeros2]
  obtain ⟨e0, e1, e2, e3, e4, e5, e6, e7, e8, e9, e10, e11⟩ := idx_facts t
  funext j
  obtain ⟨p, q, rfl⟩ : ∃ (p : Fin 256) (q : Fin 2048), j = ix2 p q := ⟨j 0, j 1, eq_ix2 j⟩
  refine (RowValue.pay_apply (iblk m c 0 t) (iblk m c 1 t) (iblk m c 2 t) (iblk m c 3 t) (iblk m c 4 t) (iblk m c 5 t) (iblk m c 6 t) p q).trans ?_
  show _ = regionOut m c (((cfg0.win 7).blk t).view.emb (ix2 p q))
  unfold regionOut G2
  refine adapterRow_congr (fun k => ?_) (fun k => ?_) (fun k => ?_) (fun j k => ?_) (fun j => ?_) (fun q' j => ?_) (fun q' => ?_) ?_
  · -- row p of the block is row 256·t + p of the rows
    show V m c main_v0 (((cfg0.win 0).blk t).view.emb (ix2 p k)) = V m c main_v0 (ix2 ((((cfg0.win 7).blk t).view.emb (ix2 p q)) 0) k)
    refine congrArg (V m c main_v0) (funext fun a => Fin.ext ?_)
    match a with
    | ⟨0, _⟩ => show win0_0.index t (0 : Fin 2) * 256 + 1 * p.val = win0_7.index t (0 : Fin 2) * 256 + 1 * p.val; omega
    | ⟨1, _⟩ => show win0_0.index t (1 : Fin 2) * 2048 + 1 * k.val = k.val; omega
  · show V m c main_arg1 (((cfg0.win 1).blk t).view.emb (ix1 k)) = V m c main_arg1 (ix1 k)
    refine congrArg (V m c main_arg1) (funext fun a => Fin.ext ?_)
    match a with
    | ⟨0, _⟩ => show win0_1.index t (0 : Fin 1) * 2048 + 1 * k.val = k.val; omega
  · show V m c main_arg2 (((cfg0.win 2).blk t).view.emb (ix1 k)) = V m c main_arg2 (ix1 k)
    refine congrArg (V m c main_arg2) (funext fun a => Fin.ext ?_)
    match a with
    | ⟨0, _⟩ => show win0_2.index t (0 : Fin 1) * 2048 + 1 * k.val = k.val; omega
  · show V m c main_v2 (((cfg0.win 3).blk t).view.emb (ix2 k j)) = V m c main_v2 (ix2 k j)
    refine congrArg (V m c main_v2) (funext fun a => Fin.ext ?_)
    match a with
    | ⟨0, _⟩ => show win0_3.index t (0 : Fin 2) * 2048 + 1 * k.val = k.val; omega
    | ⟨1, _⟩ => show win0_3.index t (1 : Fin 2) * 512 + 1 * j.val = j.val; omega
  · show V m c main_arg4 (((cfg0.win 4).blk t).view.emb (ix1 j)) = V m c main_arg4 (ix1 j)
    refine congrArg (V m c main_arg4) (funext fun a => Fin.ext ?_)
    match a with
    | ⟨0, _⟩ => show win0_4.index t (0 : Fin 1) * 512 + 1 * j.val = j.val; omega
  · show V m c main_v4 (((cfg0.win 5).blk t).view.emb (ix2 j q')) = V m c main_v4 (ix2 j q')
    refine congrArg (V m c main_v4) (funext fun a => Fin.ext ?_)
    match a with
    | ⟨0, _⟩ => show win0_5.index t (0 : Fin 2) * 512 + 1 * j.val = j.val; omega
    | ⟨1, _⟩ => show win0_5.index t (1 : Fin 2) * 2048 + 1 * q'.val = q'.val; omega
  · show V m c main_arg6 (((cfg0.win 6).blk t).view.emb (ix1 q')) = V m c main_arg6 (ix1 q')
    refine congrArg (V m c main_arg6) (funext fun a => Fin.ext ?_)
    match a with
    | ⟨0, _⟩ => show win0_6.index t (0 : Fin 1) * 2048 + 1 * q'.val = q'.val; omega
  · refine Fin.ext ?_
    show q.val = win0_7.index t (1 : Fin 2) * 2048 + 1 * q.val
    omega

/-! ## The region's array after the run -/

/-- A row index is in point t's block iff it lies in the block's range on each axis. -/
theorem mem_blk (t : Fin cfg0.N) (i : S16384x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v5).slice (win0_7.rect t)).set ↔ _
  rw [View.set_slice_whole, Rect.mem_set_unit]
  exact Iff.rfl

/-- The 64 blocks of 256 rows cover every row: row r is in the block of point r / 256. -/
theorem covered (i : S16384x2048.Idx) :
    ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨t, ht⟩ := idx_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 2048 ≤ (i 1).val ∧ (i 1).val < win0_7.index t (1 : Fin 2) * 2048 + 2048; omega

/-- After the run the region's array is the adapter layer of every row. -/
theorem region_final (c : Dev nD) : (dats m 0 c).arrAt 7 cfg0.N = regionOut m c :=
  (dats m 0 c).arrAt_eq_of_cover 7 (regionOut m c) (fun t _ => flushed_eq m c t) covered

/-! ## Rows back under their two leading axes -/

/-- The adapter layer of the rows laid along one axis, with the projections transposed, cast back to the input's shape, is
    the adapter layer of the input: row 4096·a + s of the rows is row (a, s) of the input, and a transposed matrix read at
    (k, j) is the matrix at (j, k). -/
theorem rows_to_batch (X : S4x4096x2048.Idx → EReal) (g b : S2048.Idx → EReal) (Wd : S512x2048.Idx → EReal)
    (bd : S512.Idx → EReal) (Wu : S2048x512.Idx → EReal) (bu : S2048.Idx → EReal) :
    shapeCast S4x4096x2048
        (G2 (shapeCast S16384x2048 X shapeCasts_S4x4096x2048_S16384x2048) g b
          (truncf .bf16 (transpose S2048x512 [1, 0] Wd transposes_S512x2048_S2048x512_1_0) bitsLt_bf16_f32 : FVec Ideal S2048x512 .bf16) bd
          (truncf .bf16 (transpose S512x2048 [1, 0] Wu transposes_S2048x512_S512x2048_1_0) bitsLt_bf16_f32 : FVec Ideal S512x2048 .bf16) bu)
        shapeCasts_S16384x2048_S4x4096x2048
      = G X g b Wd bd Wu bu := by
  funext i
  obtain ⟨a, s, q, rfl⟩ : ∃ (a : Fin 4) (s : Fin 4096) (q : Fin 2048), i = ix3 a s q := ⟨i 0, i 1, i 2, eq_ix3 i⟩
  have ha : a.val < 4 := a.isLt
  have hs : s.val < 4096 := s.isLt
  rw [shapeCast_apply _ shapeCasts_S16384x2048_S4x4096x2048 (ix3 a s q) (ix2 (⟨a.val * 4096 + s.val, by omega⟩ : Fin 16384) q) (by
    rw [Shape.rowMajor_val_two, Shape.rowMajor_val_three]
    show (a.val * 4096 + s.val) * 2048 + q.val = (a.val * 4096 + s.val) * 2048 + q.val
    rfl)]
  unfold G2 G
  refine adapterRow_congr (fun k => ?_) (fun _ => rfl) (fun _ => rfl) (fun j k => ?_) (fun _ => rfl) (fun q' j => ?_) (fun _ => rfl) rfl
  · exact shapeCast_apply X shapeCasts_S4x4096x2048_S16384x2048 _ _ (by
      rw [Shape.rowMajor_val_two, Shape.rowMajor_val_three]
      show (a.val * 4096 + s.val) * 2048 + k.val = (a.val * 4096 + s.val) * 2048 + k.val
      rfl)
  · exact (truncf_apply _ bitsLt_bf16_f32 _).trans (transpose_ix2_apply Wd transposes_S512x2048_S2048x512_1_0 k j)
  · exact (truncf_apply _ bitsLt_bf16_f32 _).trans (transpose_ix2_apply Wu transposes_S2048x512_S512x2048_1_0 j q')

/-! ## The program's result -/

/-- The program's result after the run: the adapter layer of the input, as a function of the arguments. -/
theorem result_eq (c : Dev nD) :
    Pipeline.afterTail₀ cfgs (dats m) 0 (V0 m) [hostOps1] c main_v6
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5) = regionOut m c :=
    (Pipeline.withArrays_arr spec0 launch0.win.arr_inj c (V0 m c) (fun w => (dats m 0 c).arrAt w cfg0.N) 7).trans (region_final m c)
  refine (congrArg (fun A : S16384x2048.Idx → EReal => shapeCast S4x4096x2048 A shapeCasts_S16384x2048_S4x4096x2048) hw).trans ?_
  unfold regionOut
  rw [V_rows, V_downT, V_upT, V_main_arg1, V_main_arg2, V_main_arg4, V_main_arg6]
  exact rows_to_batch _ _ _ _ _ _ _

/-- Every weakly fair execution of the program terminates with its result at the adapter layer of the input and its
    arguments unchanged. -/
theorem run : θ_run defs (onTc (τ := τ) (main (F := Ideal))) ⟨m, fun _ => 0, ρ⟩ fun r => ∀ c : Dev nD,
      r.2.mem ((c.tc : Thread nD τ).loc main_v6)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v6 (Pipeline.mem_restRefs_of main_v6 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.KernelIdeal.AdapterValue

end
-- ==== Proof.RefValue.lean ====
/-
  The reference program's result as the same function of its arguments.

  The reference normalises every row of the [4, 4096, 2048] input along its last axis, contracts the result with the
  down-projection's second axis, adds the bias, clips at zero, contracts with the up-projection's second axis, adds the
  bias and the input. Read at entry (a, s, q), each stage depends on row (a, s) of the input only, and the whole is the
  adapter layer applied to that row, read at q.
-/
import proofs.«100623_j18923625906221_1_alg».proof.Proof.Gen.ReferenceIdeal.Read
import proofs.«100623_j18923625906221_1_alg».proof.Proof.AdapterSpec
import Idealize.ShloMosaic.PureOps.Ideal.Laws

noncomputable section

namespace Cert.ReferenceIdeal.AdapterRef

open Cert.ReferenceIdeal Cert.ReferenceIdeal.Gen Cert.ReferenceIdeal.Read Cert.Adapter
open Idealize.ShloMosaic Idealize.ShloMosaic.ValueIdx

variable (x0 : S4x4096x2048.Idx → EReal) (x1 x2 : S2048.Idx → EReal) (x3 : S512x2048.Idx → EReal)
  (x4 : S512.Idx → EReal) (x5 : S2048x512.Idx → EReal) (x6 : S2048.Idx → EReal)

/-- Row (a, s) of the input. -/
abbrev row (a : Fin 4) (s : Fin 4096) : Fin 2048 → EReal := fun k => x0 (ix3 a s k)

/-- The kept-axis mean at (a, s, 0) is the mean of row (a, s). -/
theorem mean_eq (i : S4x4096x1.Idx) : val_main_v3 (F := Ideal) x0 i = rowMean (row x0 (i 0) (i 1)) := by
  rw [val_main_v3_apply, val_main_v1_apply, val_main_v0_apply, val_main_v2_apply]
  show Ideal.div (Ideal.ofBits .f32 0x00000000#32 + ∑ k : Fin 2048, x0 (idx_main_v0 (idx_main_v1 i) k)) (Ideal.ofBits .f32 0x45000000#32) = _
  rw [Ideal.ofBits_zero_f32, zero_add]
  exact congrArg (fun s => Ideal.div s rowLen) (Finset.sum_congr rfl fun k _ => congrArg x0 (funext fun a => Fin.ext (by
    match a with
    | ⟨0, _⟩ => rfl
    | ⟨1, _⟩ => rfl
    | ⟨2, _⟩ => rfl)))

/-- The centred input at (a, s, k). -/
theorem centred_eq (a : Fin 4) (s : Fin 4096) (k : Fin 2048) :
    val_main_v5 (F := Ideal) x0 (ix3 a s k) = x0 (ix3 a s k) - rowMean (row x0 a s) := by
  rw [val_main_v5_apply, val_main_v4_apply, mean_eq]
  rfl

/-- The kept-axis variance at (a, s, 0) is the variance of row (a, s). -/
theorem var_eq (a : Fin 4) (s : Fin 4096) (u : Fin 1) :
    val_main_v10 (F := Ideal) x0 (ix3 a s u) = rowVar (row x0 a s) := by
  rw [val_main_v10_apply, val_main_v8_apply, val_main_v7_apply, val_main_v9_apply]
  show Ideal.div (Ideal.ofBits .f32 0x00000000#32 + ∑ k : Fin 2048, val_main_v6 (F := Ideal) x0 (idx_main_v7 (idx_main_v8 (ix3 a s u)) k)) (Ideal.ofBits .f32 0x45000000#32) = _
  rw [Ideal.ofBits_zero_f32, zero_add]
  unfold rowVar
  refine congrArg (fun t => Ideal.div t rowLen) (Finset.sum_congr rfl fun k _ => ?_)
  have e : idx_main_v7 (idx_main_v8 (ix3 a s u)) k = ix3 a s k := funext fun d => Fin.ext (by
    match d with
    | ⟨0, _⟩ => rfl
    | ⟨1, _⟩ => rfl
    | ⟨2, _⟩ => rfl)
  rw [e, val_main_v6_apply, centred_eq]
  rfl

/-- The normalised input with gain and offset, at (a, s, k). -/
theorem normed_eq (a : Fin 4) (s : Fin 4096) (k : Fin 2048) :
    val_main_v23 (F := Ideal) x0 x1 x2 (ix3 a s k) = normed (row x0 a s) (fun k => x1 (ix1 k)) (fun k => x2 (ix1 k)) k := by
  rw [val_main_v23_apply, val_main_v20_apply, val_main_v17_apply, val_main_v12_apply, val_main_v11_apply, mean_eq,
    val_main_v16_apply, val_main_v15_apply, val_main_v14_apply, val_main_v13_apply,
    val_main_v19_apply, val_main_v18_apply, val_main_v22_apply, val_main_v21_apply]
  have ev : idx_main_v16 (ix3 a s k) = ix3 a s (0 : Fin 1) := funext fun d => Fin.ext (by
    match d with
    | ⟨0, _⟩ => rfl
    | ⟨1, _⟩ => rfl
    | ⟨2, _⟩ => rfl)
  have e1 : idx_main_v18 (idx_main_v19 (ix3 a s k)) = ix1 k := funext fun d => Fin.ext (by
    match d with
    | ⟨0, _⟩ => rfl)
  have e2 : idx_main_v21 (idx_main_v22 (ix3 a s k)) = ix1 k := funext fun d => Fin.ext (by
    match d with
    | ⟨0, _⟩ => rfl)
  rw [ev, var_eq, e1, e2]
  rfl

/-- The hidden activations at (a, s, j). -/
theorem hidden_eq (a : Fin 4) (s : Fin 4096) (j : Fin 512) :
    val_main_v28 (F := Ideal) x0 x1 x2 x3 x4 (ix3 a s j)
      = hiddenRow (row x0 a s) (fun k => x1 (ix1 k)) (fun k => x2 (ix1 k)) (fun j k => x3 (ix2 j k)) (fun j => x4 (ix1 j)) j := by
  rw [val_main_v28_apply, val_main_v27_apply, val_main_v24_apply, val_main_v26_apply, val_main_v25_apply, val_main_call0_v0_apply]
  have e4 : idx_main_v25 (idx_main_v26 (ix3 a s j)) = ix1 j := funext fun d => Fin.ext (by
    match d with
    | ⟨0, _⟩ => rfl)
  rw [e4]
  unfold hiddenRow
  refine congrArg₂ max (congrArg (· + x4 (ix1 j)) (Finset.sum_congr rfl fun k _ => ?_)) Ideal.ofBits_zero_f32
  have el : lidx_main_v24 (ix3 a s j) k = ix3 a s k := funext fun d => Fin.ext (by
    match d with
    | ⟨0, _⟩ => rfl
    | ⟨1, _⟩ => rfl
    | ⟨2, _⟩ => rfl)
  have er : ridx_main_v24 (ix3 a s j) k = ix2 j k := funext fun d => Fin.ext (by
    match d with
    | ⟨0, _⟩ => rfl
    | ⟨1, _⟩ => rfl)
  rw [el, er, normed_eq]

/-- The reference's result is the adapter layer of its input. -/
theorem ref_eq : val_main_v33 (F := Ideal) x0 x1 x2 x3 x4 x5 x6 = G x0 x1 x2 x3 x4 x5 x6 := by
  funext i
  obtain ⟨a, s, q, rfl⟩ : ∃ (a : Fin 4) (s : Fin 4096) (q : Fin 2048), i = ix3 a s q := ⟨i 0, i 1, i 2, eq_ix3 i⟩
  rw [val_main_v33_apply, val_main_v32_apply, val_main_v29_apply, val_main_v31_apply, val_main_v30_apply]
  have e6 : idx_main_v30 (idx_main_v31 (ix3 a s q)) = ix1 q := funext fun d => Fin.ext (by
    match d with
    | ⟨0, _⟩ => rfl)
  rw [e6]
  show x0 (ix3 a s q) + (_ + x6 (ix1 q)) = adapterRow (row x0 a s) (fun k => x1 (ix1 k)) (fun k => x2 (ix1 k)) (fun j k => x3 (ix2 j k))
    (fun j => x4 (ix1 j)) (fun q j => x5 (ix2 q j)) (fun q => x6 (ix1 q)) q
  unfold adapterRow
  refine congrArg (x0 (ix3 a s q) + ·) (congrArg (· + x6 (ix1 q)) (Finset.sum_congr rfl fun j _ => ?_))
  have el : lidx_main_v29 (ix3 a s q) j = ix3 a s j := funext fun d => Fin.ext (by
    match d with
    | ⟨0, _⟩ => rfl
    | ⟨1, _⟩ => rfl
    | ⟨2, _⟩ => rfl)
  have er : ridx_main_v29 (ix3 a s q) j = ix2 q j := funext fun d => Fin.ext (by
    match d with
    | ⟨0, _⟩ => rfl
    | ⟨1, _⟩ => rfl)
  rw [el, er, hidden_eq]

end Cert.ReferenceIdeal.AdapterRef

end
-- ==== Proof.lean ====
/-
  An adapter layer — layer normalisation, a down-projection to 512 features, a clip at zero, an up-projection back to
  2048 features, and the residual sum — computed by a tiled kernel over blocks of 256 rows and by a plain host program
  over the whole [4, 4096, 2048] input.

  Over the extended reals the two are one function. The kernel's changes of float format are the identity there, its
  two matrix products into zero accumulators are the plain sums of products the host's contractions are, its row sums
  are the host's sums along the last axis, and both divide by the same constant 2048 and add the same small constant
  to the variance, in the same order. So entry (a, s, q) of either result is the layer applied to row (a, s) of the
  input, read at q (Proof/AdapterSpec.lean): for the kernel by reading what its body stores at an entry
  (Proof/KernelRow.lean), tiling the 64 blocks of rows and undoing the two reshapes and the two transposes around the
  region (Proof/KernelValue.lean); for the host program by reading its operations one at a time (Proof/RefValue.lean).
  No law of the extended reals beyond these identities is needed, so the precondition is never opened.
-/
import proofs.«100623_j18923625906221_1_alg».proof.Defs
import proofs.«100623_j18923625906221_1_alg».proof.Proof.Gen.Kernel
import proofs.«100623_j18923625906221_1_alg».proof.Proof.Gen.Kernel.Skeleton
import proofs.«100623_j18923625906221_1_alg».proof.Proof.Gen.Kernel.Launch
import proofs.«100623_j18923625906221_1_alg».proof.Proof.Gen.Kernel.Points
import proofs.«100623_j18923625906221_1_alg».proof.Proof.Gen.Kernel.Frame
import proofs.«100623_j18923625906221_1_alg».proof.Proof.Gen.KernelIdeal
import proofs.«100623_j18923625906221_1_alg».proof.Proof.Gen.KernelIdeal.Skeleton
import proofs.«100623_j18923625906221_1_alg».proof.Proof.Gen.KernelIdeal.Launch
import proofs.«100623_j18923625906221_1_alg».proof.Proof.Gen.KernelIdeal.Points
import proofs.«100623_j18923625906221_1_alg».proof.Proof.Gen.KernelIdeal.Frame
import proofs.«100623_j18923625906221_1_alg».proof.Proof.Gen.ReferenceIdeal
import proofs.«100623_j18923625906221_1_alg».proof.Proof.Gen.ReferenceIdeal.Run
import proofs.«100623_j18923625906221_1_alg».proof.Proof.Gen.ReferenceIdeal.Read
import proofs.«100623_j18923625906221_1_alg».proof.Proof.Gen.Pre_finite_inputs
import proofs.«100623_j18923625906221_1_alg».proof.Proof.KernelValue
import proofs.«100623_j18923625906221_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The host program runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on the arguments both programs end with the adapter layer of the input as their result. -/
theorem algebraic : Cert.algebraic_KernelIdeal_ReferenceIdeal := by
  intro m ρ m' ρ' _ hagree
  refine ⟨_, Cert.KernelIdeal.AdapterValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v33_eq, Cert.ReferenceIdeal.AdapterRef.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
